-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x1200000 : Shape := ⟨2, ![2, 1200000]⟩
abbrev S1x64 : Shape := ⟨2, ![1, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x1 .f32) (main_arg1 : IVec S2x1200000 32) (main_arg2 : FVec F S1x64 .f32) (main_arg3 : FVec F S64 .f32) (main_arg4 : FVec F S64x1 .f32) (main_arg5 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x64 .f32 := Host.absf main_arg2
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg4
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg5 main_v13 main_v16
-- ==== Kernel.lean ====
abbrev S100000x1 : Shape := ⟨2, ![100000, 1]⟩
abbrev S2x1200000 : Shape := ⟨2, ![2, 1200000]⟩
abbrev S1x64 : Shape := ⟨2, ![1, 64]⟩
abbrev S64 : Shape := ⟨1, ![64]⟩
abbrev S64x1 : Shape := ⟨2, ![64, 1]⟩
abbrev S1 : Shape := ⟨1, ![1]⟩
abbrev S1x1200000 : Shape := ⟨2, ![1, 1200000]⟩
abbrev S1200000 : Shape := ⟨1, ![1200000]⟩
abbrev S100000 : Shape := ⟨1, ![100000]⟩
abbrev S1300000 : Shape := ⟨1, ![1300000]⟩
abbrev S_ : Shape := ⟨0, ![]⟩
abbrev S1300000x1 : Shape := ⟨2, ![1300000, 1]⟩
abbrev S100000x64 : Shape := ⟨2, ![100000, 64]⟩
abbrev S2000x1 : Shape := ⟨2, ![2000, 1]⟩
abbrev S2000x64 : Shape := ⟨2, ![2000, 64]⟩
abbrev S1300000x64 : Shape := ⟨2, ![1300000, 64]⟩
abbrev S1x1 : Shape := ⟨2, ![1, 1]⟩

abbrev nBuf : Space → Nat
  | .hbm => 82
  | .vmem => 16
  | .smem => 0
  | _ => 0

abbrev bufTy : (tb : Table) → Fin (tcTables nBuf tb) → BufTy
  | .hbm, ⟨0, _⟩ => ⟨S100000x1, .f32⟩
  | .hbm, ⟨1, _⟩ => ⟨S2x1200000, .i32⟩
  | .hbm, ⟨2, _⟩ => ⟨S1x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S1x1200000, .i32⟩
  | .hbm, ⟨7, _⟩ => ⟨S1200000, .i32⟩
  | .hbm, ⟨8, _⟩ => ⟨S1x1200000, .i32⟩
  | .hbm, ⟨9, _⟩ => ⟨S1200000, .i32⟩
  | .hbm, ⟨10, _⟩ => ⟨S100000, .i32⟩
  | .hbm, ⟨11, _⟩ => ⟨S1300000, .i32⟩
  | .hbm, ⟨12, _⟩ => ⟨S1300000, .i32⟩
  | .hbm, ⟨13, _⟩ => ⟨S_, .f32⟩
  | .hbm, ⟨14, _⟩ => ⟨S1300000, .f32⟩
  | .hbm, ⟨15, _⟩ => ⟨S_, .f32⟩
  | .hbm, ⟨16, _⟩ => ⟨S100000, .f32⟩
  | .hbm, ⟨17, _⟩ => ⟨S1300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1300000, .i32⟩
  | .hbm, ⟨29, _⟩ => ⟨S1300000, .i1⟩
  | .hbm, ⟨30, _⟩ => ⟨S_, .i32⟩
  | .hbm, ⟨31, _⟩ => ⟨S1300000, .i32⟩
  | .hbm, ⟨32, _⟩ => ⟨S1300000, .i32⟩
  | .hbm, ⟨33, _⟩ => ⟨S1300000, .i32⟩
  | .hbm, ⟨34, _⟩ => ⟨S1300000x1, .i32⟩
  | .hbm, ⟨35, _⟩ => ⟨S1300000, .f32⟩
  | .hbm, ⟨36, _⟩ => ⟨S_, .i32⟩
  | .hbm, ⟨37, _⟩ => ⟨S1300000, .i32⟩
  | .hbm, ⟨38, _⟩ => ⟨S1300000, .i1⟩
  | .hbm, ⟨39, _⟩ => ⟨S_, .i32⟩
  | .hbm, ⟨40, _⟩ => ⟨S1300000, .i32⟩
  | .hbm, ⟨41, _⟩ => ⟨S1300000, .i32⟩
  | .hbm, ⟨42, _⟩ => ⟨S1300000, .i32⟩
  | .hbm, ⟨43, _⟩ => ⟨S1300000x1, .i32⟩
  | .hbm, ⟨44, _⟩ => ⟨S1300000, .f32⟩
  | .hbm, ⟨45, _⟩ => ⟨S1300000, .f32⟩
  | .hbm, ⟨46, _⟩ => ⟨S100000x64, .f32⟩
  | .hbm, ⟨47, _⟩ => ⟨S_, .i32⟩
  | .hbm, ⟨48, _⟩ => ⟨S1300000, .i32⟩
  | .hbm, ⟨49, _⟩ => ⟨S1300000, .i1⟩
  | .hbm, ⟨50, _⟩ => ⟨S_, .i32⟩
  | .hbm, ⟨51, _⟩ => ⟨S1300000, .i32⟩
  | .hbm, ⟨52, _⟩ => ⟨S1300000, .i32⟩
  | .hbm, ⟨53, _⟩ => ⟨S1300000, .i32⟩
  | .hbm, ⟨54, _⟩ => ⟨S1300000x1, .i32⟩
  | .hbm, ⟨55, _⟩ => ⟨S1300000x64, .f32⟩
  | .hbm, ⟨56, _⟩ => ⟨S1300000x1, .f32⟩
  | .hbm, ⟨57, _⟩ => ⟨S1300000x64, .f32⟩
  | .hbm, ⟨58, _⟩ => ⟨S1300000x64, .f32⟩
  | .hbm, ⟨59, _⟩ => ⟨S_, .f32⟩
  | .hbm, ⟨60, _⟩ => ⟨S100000x64, .f32⟩
  | .hbm, ⟨61, _⟩ => ⟨S1300000x1, .i32⟩
  | .hbm, ⟨62, _⟩ => ⟨S100000x64, .f32⟩
  | .hbm, ⟨63, _⟩ => ⟨S1x64, .f32⟩
  | .hbm, ⟨64, _⟩ => ⟨S100000x1, .f32⟩
  | .hbm, ⟨65, _⟩ => ⟨S_, .i32⟩
  | .hbm, ⟨66, _⟩ => ⟨S1300000, .i32⟩
  | .hbm, ⟨67, _⟩ => ⟨S1300000, .i1⟩
  | .hbm, ⟨68, _⟩ => ⟨S_, .i32⟩
  | .hbm, ⟨69, _⟩ => ⟨S1300000, .i32⟩
  | .hbm, ⟨70, _⟩ => ⟨S1300000, .i32⟩
  | .hbm, ⟨71, _⟩ => ⟨S1300000, .i32⟩
  | .hbm, ⟨72, _⟩ => ⟨S1300000x1, .i32⟩
  | .hbm, ⟨73, _⟩ => ⟨S1300000x1, .f32⟩
  | .hbm, ⟨74, _⟩ => ⟨S1300000x1, .f32⟩
  | .hbm, ⟨75, _⟩ => ⟨S1300000x1, .f32⟩
  | .hbm, ⟨76, _⟩ => ⟨S_, .f32⟩
  | .hbm, ⟨77, _⟩ => ⟨S100000x1, .f32⟩
  | .hbm, ⟨78, _⟩ => ⟨S1300000x1, .i32⟩
  | .hbm, ⟨79, _⟩ => ⟨S100000x1, .f32⟩
  | .hbm, ⟨80, _⟩ => ⟨S1x1, .f32⟩
  | .hbm, ⟨81, _⟩ => ⟨S100000x1, .f32⟩
  | .local _ .vmem, ⟨0, _⟩ => ⟨S2000x1, .f32⟩
  | .local _ .vmem, ⟨1, _⟩ => ⟨S2000x1, .f32⟩
  | .local _ .vmem, ⟨2, _⟩ => ⟨S1x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S64x1, .f32⟩
  | .local _ .vmem, ⟨9, _⟩ => ⟨S2000x1, .f32⟩
  | .local _ .vmem, ⟨10, _⟩ => ⟨S2000x1, .f32⟩
  | .local _ .vmem, ⟨11, _⟩ => ⟨S2000x1, .f32⟩
  | .local _ .vmem, ⟨12, _⟩ => ⟨S2000x1, .f32⟩
  | .local _ .vmem, ⟨13, _⟩ => ⟨S1x1, .f32⟩
  | .local _ .vmem, ⟨14, _⟩ => ⟨S2000x1, .f32⟩
  | .local _ .vmem, ⟨15, _⟩ => ⟨S2000x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S100000_S1300000_d0 : Shape.Concatenates [S1200000, S100000] S1300000 0
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  inb_S2000x1_S2000x1_0_0 : ∀ a, (![0, 0] : Fin 2 → Nat) a + S2000x1.size a ≤ S2000x1.size a
  h_S2000x1 : 0 < S2000x1.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  inb_S2000x64_S2000x64_0_0 : ∀ a, (![0, 0] : Fin 2 → Nat) a + S2000x64.size a ≤ S2000x64.size a
  h_S2000x64 : 0 < S2000x64.numel
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  shapeCasts_S1x64_S1x64 : S1x64.ShapeCasts S1x64
  broadcasts_S1x64_S2000x64 : S1x64.Broadcasts S2000x64
  inb_S64x1_S64x1_0_0 : ∀ a, (![0, 0] : Fin 2 → Nat) a + S64x1.size a ≤ S64x1.size a
  h_S64x1 : 0 < S64x1.numel
  bcast_S_S100000x1 : S_.BroadcastsInDim S100000x1 (![] : Fin 0 → Fin S100000x1.rank)
  shapeCasts_S1_S1x1 : S1.ShapeCasts S1x1
  shapeCasts_S2000x1_S2000x1 : S2000x1.ShapeCasts S2000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S2000x1_S1x64_S2000x64_1_0_0_1_n_n_wf : DotDims.WF S2000x1 S1x64 S2000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S2000x64_S64x1_S2000x1_1_0_0_1_n_n_wf : DotDims.WF S2000x64 S64x1 S2000x1 [1] [0] [0] [1] [] []
  gather_S100000x1_S1300000x1_S1300000x1_1_0_n_n_0_1_11_wf : GatherDims.WF S100000x1 S1300000x1 S1300000x1 [1] [0] [] [0] [] 1 ![1, 1]
  scatter_S100000x1_S1300000x1_S1300000x1_1_0_0_1_wf : ScatterDims.WF S100000x1 S1300000x1 S1300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S100000x1.size a
  hwx0_0 : ∀ i : grid0.Coords, EltTy.bits .f32 = 32 ∨ (Rect.block (s := S100000x1) S2000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S100000x1.size a
  hwx1_3 : ∀ i : grid1.Coords, EltTy.bits .f32 = 32 ∨ (Rect.block (s := S100000x1) S2000x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x1.size a ≤ S100000x1.size a
  hwx2_0 : ∀ i : grid2.Coords, EltTy.bits .f32 = 32 ∨ (Rect.block (s := S100000x1) S2000x1.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S2000x1_S1x64_S2000x64_1_0_0_1_n_n : DotDims S2000x1 S1x64 S2000x64 where
  lhsContracting := [1]
  rhsContracting := [0]
  lhsNonContracting := [0]
  rhsNonContracting := [1]
  lhsBatch := []
  rhsBatch := []
  wf := dot_S2000x1_S1x64_S2000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf
def gather_S100000x1_S1300000x1_S1300000x1_1_0_n_n_0_1_11 : GatherDims S100000x1 S1300000x1 S1300000x1 where
  offsetDims := [1]
  collapsedSliceDims := [0]
  operandBatchingDims := []
  startIndicesBatchingDims := []
  startIndexMap := [0]
  indexVectorDim := 1
  sliceSizes := ![1, 1]
  wf := gather_S100000x1_S1300000x1_S1300000x1_1_0_n_n_0_1_11_wf
def scatter_S100000x1_S1300000x1_S1300000x1_1_0_0_1 : ScatterDims S100000x1 S1300000x1 S1300000x1 where
  updateWindowDims := [1]
  insertedWindowDims := [0]
  scatterDimsToOperandDims := [0]
  indexVectorDim := 1
  wf := scatter_S100000x1_S1300000x1_S1300000x1_1_0_0_1_wf

abbrev win0_0 : Pipeline.Window sig grid0 :=
  Pipeline.Window.ofSpec (Memref.whole main_arg0) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S2000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S2000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S2000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x1 : Shape := ⟨2, ![100000, 1]⟩
abbrev S2x1200000 : Shape := ⟨2, ![2, 1200000]⟩
abbrev S1x64 : Shape := ⟨2, ![1, 64]⟩
abbrev S64 : Shape := ⟨1, ![64]⟩
abbrev S64x1 : Shape := ⟨2, ![64, 1]⟩
abbrev S1 : Shape := ⟨1, ![1]⟩
abbrev S100000x64 : Shape := ⟨2, ![100000, 64]⟩
abbrev S1x1200000 : Shape := ⟨2, ![1, 1200000]⟩
abbrev S1200000 : Shape := ⟨1, ![1200000]⟩
abbrev S100000 : Shape := ⟨1, ![100000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x1 : Shape := ⟨2, ![1, 1]⟩

abbrev nBuf : Space → Nat
  | .hbm => 130
  | .vmem => 0
  | .smem => 0
  | _ => 0

abbrev hbmTy0_0 (i : Nat) : BufTy := match i % 128 with
  | 0 => ⟨S100000x1, .f32⟩
  | 1 => ⟨S2x1200000, .i32⟩
  | 2 => ⟨S1x64, .f32⟩
  | 3 => ⟨S64, .f32⟩
  | 4 => ⟨S64x1, .f32⟩
  | 5 => ⟨S1, .f32⟩
  | 6 => ⟨S100000x64, .f32⟩
  | 7 => ⟨S1x1200000, .i32⟩
  | 8 => ⟨S1200000, .i32⟩
  | 9 => ⟨S100000, .i32⟩
  | 10 => ⟨S1300000, .i32⟩
  | 11 => ⟨S1x1200000, .i32⟩
  | 12 => ⟨S1200000, .i32⟩
  | 13 => ⟨S100000, .i32⟩
  | 14 => ⟨S1300000, .i32⟩
  | 15 => ⟨S_, .f32⟩
  | 16 => ⟨S1300000, .f32⟩
  | 17 => ⟨S_, .f32⟩
  | 18 => ⟨S100000, .f32⟩
  | 19 => ⟨S1300000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1300000, .i32⟩
  | 31 => ⟨S1300000, .i1⟩
  | 32 => ⟨S_, .i32⟩
  | 33 => ⟨S1300000, .i32⟩
  | 34 => ⟨S1300000, .i32⟩
  | 35 => ⟨S1300000, .i32⟩
  | 36 => ⟨S1300000x1, .i32⟩
  | 37 => ⟨S1300000, .f32⟩
  | 38 => ⟨S_, .i32⟩
  | 39 => ⟨S1300000, .i32⟩
  | 40 => ⟨S1300000, .i1⟩
  | 41 => ⟨S_, .i32⟩
  | 42 => ⟨S1300000, .i32⟩
  | 43 => ⟨S1300000, .i32⟩
  | 44 => ⟨S1300000, .i32⟩
  | 45 => ⟨S1300000x1, .i32⟩
  | 46 => ⟨S1300000, .f32⟩
  | 47 => ⟨S1300000, .f32⟩
  | 48 => ⟨S_, .i32⟩
  | 49 => ⟨S1300000, .i32⟩
  | 50 => ⟨S1300000, .i1⟩
  | 51 => ⟨S_, .i32⟩
  | 52 => ⟨S1300000, .i32⟩
  | 53 => ⟨S1300000, .i32⟩
  | 54 => ⟨S1300000, .i32⟩
  | 55 => ⟨S1300000x1, .i32⟩
  | 56 => ⟨S1300000x64, .f32⟩
  | 57 => ⟨S1300000x1, .f32⟩
  | 58 => ⟨S1300000x64, .f32⟩
  | 59 => ⟨S1300000x64, .f32⟩
  | 60 => ⟨S_, .f32⟩
  | 61 => ⟨S100000x64, .f32⟩
  | 62 => ⟨S1300000x1, .i32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000x1, .f32⟩
  | 71 => ⟨S1x1200000, .i32⟩
  | 72 => ⟨S1200000, .i32⟩
  | 73 => ⟨S100000, .i32⟩
  | 74 => ⟨S1300000, .i32⟩
  | 75 => ⟨S1x1200000, .i32⟩
  | 76 => ⟨S1200000, .i32⟩
  | 77 => ⟨S100000, .i32⟩
  | 78 => ⟨S1300000, .i32⟩
  | 79 => ⟨S_, .f32⟩
  | 80 => ⟨S1300000, .f32⟩
  | 81 => ⟨S_, .f32⟩
  | 82 => ⟨S100000, .f32⟩
  | 83 => ⟨S1300000x1, .i32⟩
  | 84 => ⟨S100000, .f32⟩
  | 85 => ⟨S_, .f32⟩
  | 86 => ⟨S100000, .f32⟩
  | 87 => ⟨S100000, .i1⟩
  | 88 => ⟨S100000, .f32⟩
  | 89 => ⟨S_, .f32⟩
  | 90 => ⟨S_, .f32⟩
  | 91 => ⟨S100000, .f32⟩
  | 92 => ⟨S100000, .f32⟩
  | 93 => ⟨S_, .i32⟩
  | 94 => ⟨S1300000, .i32⟩
  | 95 => ⟨S1300000, .i1⟩
  | 96 => ⟨S_, .i32⟩
  | 97 => ⟨S1300000, .i32⟩
  | 98 => ⟨S1300000, .i32⟩
  | 99 => ⟨S1300000, .i32⟩
  | 100 => ⟨S1300000x1, .i32⟩
  | 101 => ⟨S1300000, .f32⟩
  | 102 => ⟨S_, .i32⟩
  | 103 => ⟨S1300000, .i32⟩
  | 104 => ⟨S1300000, .i1⟩
  | 105 => ⟨S_, .i32⟩
  | 106 => ⟨S1300000, .i32⟩
  | 107 => ⟨S1300000, .i32⟩
  | 108 => ⟨S1300000, .i32⟩
  | 109 => ⟨S1300000x1, .i32⟩
  | 110 => ⟨S1300000, .f32⟩
  | 111 => ⟨S1300000, .f32⟩
  | 112 => ⟨S_, .i32⟩
  | 113 => ⟨S1300000, .i32⟩
  | 114 => ⟨S1300000, .i1⟩
  | 115 => ⟨S_, .i32⟩
  | 116 => ⟨S1300000, .i32⟩
  | 117 => ⟨S1300000, .i32⟩
  | 118 => ⟨S1300000, .i32⟩
  | 119 => ⟨S1300000x1, .i32⟩
  | 120 => ⟨S1300000x1, .f32⟩
  | 121 => ⟨S1300000x1, .f32⟩
  | 122 => ⟨S1300000x1, .f32⟩
  | 123 => ⟨S_, .f32⟩
  | 124 => ⟨S100000x1, .f32⟩
  | 125 => ⟨S1300000x1, .i32⟩
  | 126 => ⟨S100000x1, .f32⟩
  | 127 => ⟨S1x1, .f32⟩
  | _ => ⟨S100000x1, .f32⟩

abbrev hbmTy0_1 (i : Nat) : BufTy := match i % 128 with
  | 0 => ⟨S100000x1, .f32⟩
  | 1 => ⟨S100000x1, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_9 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_call2_v0 : Ref sig .tc := ⟨.hbm, 90, rfl⟩
abbrev main_call2_v1 : Ref sig .tc := ⟨.hbm, 91, rfl⟩
abbrev main_v65 : Ref sig .tc := ⟨.hbm, 92, rfl⟩
abbrev main_c_13 : Ref sig .tc := ⟨.hbm, 93, rfl⟩
abbrev main_v66 : Ref sig .tc := ⟨.hbm, 94, rfl⟩
abbrev main_v67 : Ref sig .tc := ⟨.hbm, 95, rfl⟩
abbrev main_c_14 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_15 : Ref sig .tc := ⟨.hbm, 102, rfl⟩
abbrev main_v73 : Ref sig .tc := ⟨.hbm, 103, rfl⟩
abbrev main_v74 : Ref sig .tc := ⟨.hbm, 104, rfl⟩
abbrev main_c_16 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_17 : Ref sig .tc := ⟨.hbm, 112, rfl⟩
abbrev main_v81 : Ref sig .tc := ⟨.hbm, 113, rfl⟩
abbrev main_v82 : Ref sig .tc := ⟨.hbm, 114, rfl⟩
abbrev main_c_18 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_19 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x1_S1x64_S100000x64_1_0_0_1_n_n_wf : DotDims.WF S100000x1 S1x64 S100000x64 [1] [0] [0] [1] [] []
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S100000x64_S64x1_S100000x1_1_0_0_1_n_n_wf : DotDims.WF S100000x64 S64x1 S100000x1 [1] [0] [0] [1] [] []
  gather_S100000x1_S1300000x1_S1300000x1_1_0_n_n_0_1_11_wf : GatherDims.WF S100000x1 S1300000x1 S1300000x1 [1] [0] [] [0] [] 1 ![1, 1]
  scatter_S100000x1_S1300000x1_S1300000x1_1_0_0_1_wf : ScatterDims.WF S100000x1 S1300000x1 S1300000x1 [1] [0] [0] 1

variable [Facts₀]

def dot_S100000x1_S1x64_S100000x64_1_0_0_1_n_n : DotDims S100000x1 S1x64 S100000x64 where
  lhsContracting := [1]
  rhsContracting := [0]
  lhsNonContracting := [0]
  rhsNonContracting := [1]
  lhsBatch := []
  rhsBatch := []
  wf := dot_S100000x1_S1x64_S100000x64_1_0_0_1_n_n_wf
def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S1300000x1_S1300000x1_1_0_n_n_0_1_11 : GatherDims S100000x1 S1300000x1 S1300000x1 where
  offsetDims := [1]
  collapsedSliceDims := [0]
  operandBatchingDims := []
  startIndicesBatchingDims := []
  startIndexMap := [0]
  indexVectorDim := 1
  sliceSizes := ![1, 1]
  wf := gather_S100000x1_S1300000x1_S1300000x1_1_0_n_n_0_1_11_wf
def scatter_S100000x1_S1300000x1_S1300000x1_1_0_0_1 : ScatterDims S100000x1 S1300000x1 S1300000x1 where
  updateWindowDims := [1]
  insertedWindowDims := [0]
  scatterDimsToOperandDims := [0]
  indexVectorDim := 1
  wf := scatter_S100000x1_S1300000x1_S1300000x1_1_0_0_1_wf

class Facts : Prop extends Facts₀ where

variable [Facts]
-- ==== Proof.HostGlue.lean ====
/-
  The host operations of the kernel's program, stretch by stretch, read against the reference's stages.

  Both programs build the same graph data from the edge list — source and destination indices with the self loops appended,
  the in-degree by a scatter-add of ones, its inverse square root where the degree is positive, and the per-edge weight
  `dinv[src] · dinv[dst]` — and aggregate with the same gather, scaling and scatter-add.  The reference does this twice,
  once per layer; the kernel's program computes the graph data once and reuses it.  So each buffer the kernel's host
  operations write is, as a term, one of the reference's stages: of the first layer's copy or, equally, of the second's.
  Everything here holds for any interpretation of the floats; no arithmetic law is used.
-/
import proofs.«146881_j44976897524569_1_alg».proof.Proof.Gen.KernelIdeal.Frame
import proofs.«146881_j44976897524569_1_alg».proof.Proof.RefRead
import Idealize.ShloMosaic.Lib.StableHlo.Run
import Idealize.ShloMosaic.Lib.Pipeline.Value

set_option maxRecDepth 16384

noncomputable section

namespace Cert.KernelIdeal.HostGlue

open Idealize.ShloMosaic Idealize.ShloMosaic.TcCoe Idealize.SL.Sem Idealize.ShloMosaic.StableHlo
open Cert.KernelIdeal Cert.KernelIdeal.Gen
open Cert.ReferenceIdeal.ReadP

variable {F : FTy → Type} [FloatOps F]

/-- A buffer that no operation of a stretch writes keeps its contents across the stretch. -/
local macro "keeps" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## The second layer's copies of the graph data are the first layer's -/

theorem src_copy (e : (⟨Cert.ReferenceIdeal.S2x1200000, .i32⟩ : BufTy).Contents (Elt F)) :
    val_main_v53 (F := F) e = val_main_v4 (F := F) e := rfl
theorem dst_copy (e : (⟨Cert.ReferenceIdeal.S2x1200000, .i32⟩ : BufTy).Contents (Elt F)) :
    val_main_v57 (F := F) e = val_main_v8 (F := F) e := rfl
theorem norm_copy (e : (⟨Cert.ReferenceIdeal.S2x1200000, .i32⟩ : BufTy).Contents (Elt F)) :
    val_main_v80 (F := F) e = val_main_v31 (F := F) e := rfl

/-! ## The first stretch: the graph data, from the launch memory -/

section Launch

variable (m : (ℓ : Loc nD τ sig) → Buf (Elt F) ℓ) (ρ : Dev nD → PrngReg) (c : Dev nD)

/-- The source indices with the self loops appended, as the first region finds them. -/
theorem W3_src : W3 m ρ c (Proc.devRef .tc main_v5) = val_main_v4 (F := F) (m ((c : Thread nD τ).loc main_arg1)) := by
  have h2 : W3 m ρ c (Proc.devRef .tc main_v5) = W2 m ρ c (Proc.devRef .tc main_v5) := by keeps hostOps0_2
  have h1 : W2 m ρ c (Proc.devRef .tc main_v5) = W1 m ρ c (Proc.devRef .tc main_v5) := by keeps hostOps0_1
  rw [h2, h1]
  show StableHlo.after hostOps0 (W0 m ρ c) (Proc.devRef .tc main_v5) = _
  simp only [hostOps0]
  after_results
  rfl

/-- The destination indices with the self loops appended. -/
theorem W3_dst : W3 m ρ c (Proc.devRef .tc main_v6) = val_main_v8 (F := F) (m ((c : Thread nD τ).loc main_arg1)) := by
  have h2 : W3 m ρ c (Proc.devRef .tc main_v6) = W2 m ρ c (Proc.devRef .tc main_v6) := by keeps hostOps0_2
  have h1 : W2 m ρ c (Proc.devRef .tc main_v6) = W1 m ρ c (Proc.devRef .tc main_v6) := by keeps hostOps0_1
  rw [h2, h1]
  show StableHlo.after hostOps0 (W0 m ρ c) (Proc.devRef .tc main_v6) = _
  simp only [hostOps0]
  after_results
  rfl

/-- The per-edge weight `dinv[src] · dinv[dst]`. -/
theorem W3_norm : W3 m ρ c (Proc.devRef .tc main_v29) = val_main_v31 (F := F) (m ((c : Thread nD τ).loc main_arg1)) := by
  show StableHlo.after hostOps0_2 (StableHlo.after hostOps0_1 (StableHlo.after hostOps0 (W0 m ρ c))) (Proc.devRef .tc main_v29) = _
  simp only [hostOps0, hostOps0_1, hostOps0_2]
  after_results_simp
  rfl

/-- An argument array is as launched when the first region is entered. -/
theorem W3_arg0 : W3 m ρ c (Proc.devRef .tc main_arg0) = m ((c : Thread nD τ).loc main_arg0) :=
  (show W3 m ρ c (Proc.devRef .tc main_arg0) = W2 m ρ c (Proc.devRef .tc main_arg0) by keeps hostOps0_2).trans
    ((show W2 m ρ c (Proc.devRef .tc main_arg0) = W1 m ρ c (Proc.devRef .tc main_arg0) by keeps hostOps0_1).trans
      (show W1 m ρ c (Proc.devRef .tc main_arg0) = W0 m ρ c (Proc.devRef .tc main_arg0) by keeps hostOps0))
theorem W3_arg2 : W3 m ρ c (Proc.devRef .tc main_arg2) = m ((c : Thread nD τ).loc main_arg2) :=
  (show W3 m ρ c (Proc.devRef .tc main_arg2) = W2 m ρ c (Proc.devRef .tc main_arg2) by keeps hostOps0_2).trans
    ((show W2 m ρ c (Proc.devRef .tc main_arg2) = W1 m ρ c (Proc.devRef .tc main_arg2) by keeps hostOps0_1).trans
      (show W1 m ρ c (Proc.devRef .tc main_arg2) = W0 m ρ c (Proc.devRef .tc main_arg2) by keeps hostOps0))
theorem W3_arg3 : W3 m ρ c (Proc.devRef .tc main_arg3) = m ((c : Thread nD τ).loc main_arg3) :=
  (show W3 m ρ c (Proc.devRef .tc main_arg3) = W2 m ρ c (Proc.devRef .tc main_arg3) by keeps hostOps0_2).trans
    ((show W2 m ρ c (Proc.devRef .tc main_arg3) = W1 m ρ c (Proc.devRef .tc main_arg3) by keeps hostOps0_1).trans
      (show W1 m ρ c (Proc.devRef .tc main_arg3) = W0 m ρ c (Proc.devRef .tc main_arg3) by keeps hostOps0))
theorem W3_arg4 : W3 m ρ c (Proc.devRef .tc main_arg4) = m ((c : Thread nD τ).loc main_arg4) :=
  (show W3 m ρ c (Proc.devRef .tc main_arg4) = W2 m ρ c (Proc.devRef .tc main_arg4) by keeps hostOps0_2).trans
    ((show W2 m ρ c (Proc.devRef .tc main_arg4) = W1 m ρ c (Proc.devRef .tc main_arg4) by keeps hostOps0_1).trans
      (show W1 m ρ c (Proc.devRef .tc main_arg4) = W0 m ρ c (Proc.devRef .tc main_arg4) by keeps hostOps0))
theorem W3_arg5 : W3 m ρ c (Proc.devRef .tc main_arg5) = m ((c : Thread nD τ).loc main_arg5) :=
  (show W3 m ρ c (Proc.devRef .tc main_arg5) = W2 m ρ c (Proc.devRef .tc main_arg5) by keeps hostOps0_2).trans
    ((show W2 m ρ c (Proc.devRef .tc main_arg5) = W1 m ρ c (Proc.devRef .tc main_arg5) by keeps hostOps0_1).trans
      (show W1 m ρ c (Proc.devRef .tc main_arg5) = W0 m ρ c (Proc.devRef .tc main_arg5) by keeps hostOps0))

end Launch

/-! ## The later stretches, from ANY contents that hold the graph data and the region's result -/

section Stretches

variable (Wv : Valuation τ sig (Elt F))

/-- The second stretch keeps what it does not write. -/
theorem stretch1_keeps_src : StableHlo.after hostOps1 Wv (Proc.devRef .tc main_v5) = Wv (Proc.devRef .tc main_v5) := by keeps hostOps1
theorem stretch1_keeps_dst : StableHlo.after hostOps1 Wv (Proc.devRef .tc main_v6) = Wv (Proc.devRef .tc main_v6) := by keeps hostOps1
theorem stretch1_keeps_norm : StableHlo.after hostOps1 Wv (Proc.devRef .tc main_v29) = Wv (Proc.devRef .tc main_v29) := by keeps hostOps1
theorem stretch1_keeps_arg4 : StableHlo.after hostOps1 Wv (Proc.devRef .tc main_arg4) = Wv (Proc.devRef .tc main_arg4) := by keeps hostOps1
theorem stretch1_keeps_arg5 : StableHlo.after hostOps1 Wv (Proc.devRef .tc main_arg5) = Wv (Proc.devRef .tc main_arg5) := by keeps hostOps1

/-- The first aggregation: gather the projected rows at the sources, scale by the edge weight, scatter-add at the
    destinations. -/
theorem stretch1_agg
    (x : (⟨Cert.ReferenceIdeal.S100000x1, .f32⟩ : BufTy).Contents (Elt F))
    (e : (⟨Cert.ReferenceIdeal.S2x1200000, .i32⟩ : BufTy).Contents (Elt F))
    (w : (⟨Cert.ReferenceIdeal.S1x64, .f32⟩ : BufTy).Contents (Elt F))
    (h30 : Wv (Proc.devRef .tc main_v30) = val_main_v0 (F := F) x w)
    (h5 : Wv (Proc.devRef .tc main_v5) = val_main_v4 (F := F) e)
    (h6 : Wv (Proc.devRef .tc main_v6) = val_main_v8 (F := F) e)
    (h29 : Wv (Proc.devRef .tc main_v29) = val_main_v31 (F := F) e) :
    StableHlo.after hostOps1 Wv (Proc.devRef .tc main_v43) = val_main_v44 (F := F) x e w := by
  simp only [hostOps1]
  after_results_simp
  rw [h30, h5, h6, h29]
  rfl

/-- The first bias as a row: the reshape of the kernel's program reads where the reference's broadcast does. -/
theorem stretch1_bias (b : (⟨Cert.ReferenceIdeal.S64, .f32⟩ : BufTy).Contents (Elt F))
    (h3 : Wv (Proc.devRef .tc main_arg3) = b) :
    StableHlo.after hostOps1 Wv (Proc.devRef .tc main_v44) = val_main_v45 (F := F) b := by
  simp only [hostOps1]
  after_results
  rw [h3]
  funext j
  rw [val_main_v45_apply]
  show shapeCast S1x64 b shapeCasts_S64_S1x64 j = _
  exact (shapeCast_addUnit_apply ![64] b shapeCasts_S64_S1x64 j).trans
    (congrArg b (funext fun a => match a with | ⟨0, _⟩ => Fin.ext rfl))

/-- The third stretch keeps the last bias. -/
theorem stretch2_keeps_arg5' : StableHlo.after hostOps2 Wv (Proc.devRef .tc main_arg5) = Wv (Proc.devRef .tc main_arg5) := by keeps hostOps2

/-- The second aggregation, over the second copy of the graph data. -/
theorem stretch2_agg
    (x : (⟨Cert.ReferenceIdeal.S100000x1, .f32⟩ : BufTy).Contents (Elt F))
    (e : (⟨Cert.ReferenceIdeal.S2x1200000, .i32⟩ : BufTy).Contents (Elt F))
    (w : (⟨Cert.ReferenceIdeal.S1x64, .f32⟩ : BufTy).Contents (Elt F))
    (b : (⟨Cert.ReferenceIdeal.S64, .f32⟩ : BufTy).Contents (Elt F))
    (w2 : (⟨Cert.ReferenceIdeal.S64x1, .f32⟩ : BufTy).Contents (Elt F))
    (h45 : Wv (Proc.devRef .tc main_v45) = val_main_v49 (F := F) x e w b w2)
    (h5 : Wv (Proc.devRef .tc main_v5) = val_main_v53 (F := F) e)
    (h6 : Wv (Proc.devRef .tc main_v6) = val_main_v57 (F := F) e)
    (h29 : Wv (Proc.devRef .tc main_v29) = val_main_v80 (F := F) e) :
    StableHlo.after hostOps2 Wv (Proc.devRef .tc main_v57) = val_main_v92 (F := F) x e w b w2 := by
  simp only [hostOps2]
  after_results_simp
  rw [h45, h5, h6, h29]
  rfl

/-- The last bias as a one-entry row. -/
theorem stretch2_bias (b : (⟨Cert.ReferenceIdeal.S1, .f32⟩ : BufTy).Contents (Elt F))
    (h5 : Wv (Proc.devRef .tc main_arg5) = b) :
    StableHlo.after hostOps2 Wv (Proc.devRef .tc main_v58) = val_main_v93 (F := F) b := by
  simp only [hostOps2]
  after_results
  rw [h5]
  funext j
  rw [val_main_v93_apply]
  show shapeCast S1x1 b shapeCasts_S1_S1x1 j = _
  exact (shapeCast_addUnit_apply ![1] b shapeCasts_S1_S1x1 j).trans
    (congrArg b (funext fun a => match a with | ⟨0, _⟩ => Fin.ext (by
      show (j 1).val = 0
      have h : (j 1).val < 1 := (j 1).isLt
      omega)))

end Stretches

end Cert.KernelIdeal.HostGlue

end
-- ==== Proof.Spec.lean ====
/-
  The three dense stages of the two-layer graph convolution, each as ONE function of whole arrays, index by index, on the
  extended reals.  Between them both programs apply the same sparse aggregation (gather, scale, scatter-add); these
  are the stages a kernel region computes tile by tile and the reference computes with one host operation.

  * `proj x w`   : the first projection, `(x · W₁)[i, j] = Σ_{k < 1} x[i, k] · W₁[k, j]`;
  * `tail a b w` : bias, rectifier and second projection fused,
                    `Σ_{k < 64} max (a[i, k] + b[0, k]) 0 · W₂[k, j]`;
  * `bias a b`   : the last bias, `a[i, j] + b[0, 0]`.
-/
import Idealize.ShloMosaic.PureOps.Ideal
import Idealize.ShloMosaic.Lib.ValueIdx

noncomputable section

namespace Cert.Spec

open Idealize.ShloMosaic Idealize.ShloMosaic.ValueIdx

abbrev ShN1 : Shape := ⟨2, ![100000, 1]⟩
abbrev ShN64 : Shape := ⟨2, ![100000, 64]⟩
abbrev Sh1x64 : Shape := ⟨2, ![1, 64]⟩
abbrev Sh64x1 : Shape := ⟨2, ![64, 1]⟩
abbrev Sh1x1 : Shape := ⟨2, ![1, 1]⟩

/-- Row `i`, column `j` of `x · W₁`: the contraction runs over the single inner index. -/
def proj (x : FVec Ideal ShN1 .f32) (w : FVec Ideal Sh1x64 .f32) : FVec Ideal ShN64 .f32 :=
  fun i => ∑ k : Fin 1, x (ix2 (⟨(i 0).val, (i 0).isLt⟩ : Fin 100000) k) * w (ix2 k (⟨(i 1).val, (i 1).isLt⟩ : Fin 64))

/-- Row `i`, column `j` of `max (a + b) 0 · W₂`, the bias row `b` added to every row of `a` before the rectifier. -/
def tail (a : FVec Ideal ShN64 .f32) (b : FVec Ideal Sh1x64 .f32) (w : FVec Ideal Sh64x1 .f32) : FVec Ideal ShN1 .f32 :=
  fun i => ∑ k : Fin 64,
    max (a (ix2 (⟨(i 0).val, (i 0).isLt⟩ : Fin 100000) k) + b (ix2 (0 : Fin 1) k)) (Ideal.ofBits .f32 0x00000000#32)
      * w (ix2 k (⟨(i 1).val, (i 1).isLt⟩ : Fin 1))

/-- The one bias entry added to every entry of `a`. -/
def bias (a : FVec Ideal ShN1 .f32) (b : FVec Ideal Sh1x1 .f32) : FVec Ideal ShN1 .f32 :=
  fun i => a i + b (ix2 (0 : Fin 1) (0 : Fin 1))

end Cert.Spec

end
-- ==== Proof.Region0.lean ====
/-
  The first region (the projection x · W₁, fifty row tiles of 2000): whatever the buffers hold when the region is
  entered, the result array ends holding `Spec.proj` of the two operand arrays.
-/
import proofs.«146881_j44976897524569_1_alg».proof.Proof.Gen.KernelIdeal.Frame
import proofs.«146881_j44976897524569_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen

-- the TensorCore's buffer contents when the region is entered
variable (V : (c : Dev nD) → (b : Ref sig .tc) → Buf (Elt Ideal) ((c : Thread nD τ).loc b))

/-! ## The tile product at an index -/

/-- The left operand's row coordinate under the contraction is the result's row. -/
theorem lhs_row (i : S2000x64.Idx) (q : dot_S2000x1_S1x64_S2000x64_1_0_0_1_n_n.contr.Idx) :
    (dot_S2000x1_S1x64_S2000x64_1_0_0_1_n_n.lhsIdx i q 0).val = (i 0).val := by
  unfold DotDims.lhsIdx
  rw [dif_neg (show ¬(0 : Fin S2000x1.rank) ∈ dot_S2000x1_S1x64_S2000x64_1_0_0_1_n_n.lhsBatch by decide), dif_pos (show (0 : Fin S2000x1.rank) ∈ dot_S2000x1_S1x64_S2000x64_1_0_0_1_n_n.lhsNonContracting by decide)]
  rfl
/-- The left operand's column coordinate is the contracted index. -/
theorem lhs_inner (i : S2000x64.Idx) (q : dot_S2000x1_S1x64_S2000x64_1_0_0_1_n_n.contr.Idx) :
    (dot_S2000x1_S1x64_S2000x64_1_0_0_1_n_n.lhsIdx i q 1).val = (q ⟨0, by decide⟩).val :=
  dot_S2000x1_S1x64_S2000x64_1_0_0_1_n_n.lhsIdx_val_of_single rfl i q
/-- The right operand's row coordinate is the contracted index. -/
theorem rhs_inner (i : S2000x64.Idx) (q : dot_S2000x1_S1x64_S2000x64_1_0_0_1_n_n.contr.Idx) :
    (dot_S2000x1_S1x64_S2000x64_1_0_0_1_n_n.rhsIdx i q 0).val = (q ⟨0, by decide⟩).val :=
  dot_S2000x1_S1x64_S2000x64_1_0_0_1_n_n.rhsIdx_val_of_single rfl i q
/-- The right operand's column coordinate is the result's column. -/
theorem rhs_col (i : S2000x64.Idx) (q : dot_S2000x1_S1x64_S2000x64_1_0_0_1_n_n.contr.Idx) :
    (dot_S2000x1_S1x64_S2000x64_1_0_0_1_n_n.rhsIdx i q 1).val = (i 1).val := by
  unfold DotDims.rhsIdx
  rw [dif_neg (show ¬(1 : Fin S1x64.rank) ∈ dot_S2000x1_S1x64_S2000x64_1_0_0_1_n_n.rhsBatch by decide), dif_pos (show (1 : Fin S1x64.rank) ∈ dot_S2000x1_S1x64_S2000x64_1_0_0_1_n_n.rhsNonContracting by decide)]
  rfl

/-- Where the tile product at `j` reads its left operand: row of `j`, inner index `k`. -/
abbrev lrd (j : S2000x64.Idx) (k : Fin 1) : S2000x1.Idx := fun a => match a with
  | ⟨0, _⟩ => ⟨(j 0).val, (j 0).isLt⟩
  | ⟨1, _⟩ => ⟨k.val, k.isLt⟩
/-- Where it reads its right operand: inner index `k`, column of `j`. -/
abbrev rrd (j : S2000x64.Idx) (k : Fin 1) : S1x64.Idx := fun a => match a with
  | ⟨0, _⟩ => ⟨k.val, k.isLt⟩
  | ⟨1, _⟩ => ⟨(j 1).val, (j 1).isLt⟩

/-- The body's result on one tile, entry by entry: over the reals the narrowing of the operands changes nothing and
    the product accumulated into zero is the sum over the one inner index. -/
theorem tile_apply (x0 : FVec Ideal S2000x1 .f32) (x1 : FVec Ideal S1x64 .f32) (j : S2000x64.Idx) :
    k0_pay1 (F := Ideal) x0 x1 j = ∑ k : Fin 1, x0 (lrd j k) * x1 (rrd j k) := by
  unfold k0_pay1
  refine (Ideal.matmul_constant_zero_apply dot_S2000x1_S1x64_S2000x64_1_0_0_1_n_n none _ _ j).trans ?_
  rw [← Equiv.sum_comp (ValueIdx.contrEquiv1 dot_S2000x1_S1x64_S2000x64_1_0_0_1_n_n 1 rfl rfl).symm]
  refine Finset.sum_congr rfl fun k _ => ?_
  have hk := ValueIdx.contrEquiv1_symm_val dot_S2000x1_S1x64_S2000x64_1_0_0_1_n_n 1 rfl rfl k
  have el : dot_S2000x1_S1x64_S2000x64_1_0_0_1_n_n.lhsIdx j ((ValueIdx.contrEquiv1 dot_S2000x1_S1x64_S2000x64_1_0_0_1_n_n 1 rfl rfl).symm k) = lrd j k := funext fun a => Fin.ext (by
    match a with
    | ⟨0, _⟩ => exact lhs_row _ _
    | ⟨1, _⟩ => exact (lhs_inner _ _).trans hk)
  have er : dot_S2000x1_S1x64_S2000x64_1_0_0_1_n_n.rhsIdx j ((ValueIdx.contrEquiv1 dot_S2000x1_S1x64_S2000x64_1_0_0_1_n_n 1 rfl rfl).symm k) = rrd j k := funext fun a => Fin.ext (by
    match a with
    | ⟨0, _⟩ => exact (rhs_inner _ _).trans hk
    | ⟨1, _⟩ => exact rhs_col _ _)
  rw [el, er]
  rfl

/-! ## From tiles to the array -/

/-- The offset of a tile-sized access inside its own tile is zero on both axes. -/
theorem hz : (![0, 0] : Fin 2 → Nat) = fun _ => 0 := funext fun a => by fin_cases a <;> rfl

/-- The printed index maps, decided over the fifty points: the row tile of the left operand and of the result is the
    point's own number, every other block index is zero. -/
theorem idx_facts : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is tile `t` of the product `x · W₁`: entry `(r, j)` of the tile is the sum over the one
    inner index of row `2000 t + r` of `x` times column `j` of `W₁`. -/
theorem flushed_eq (c : Dev nD) (t : Fin cfg0.N) :
    (dat0 (F := Ideal) V c).flushed 2 t = ((cfg0.win 2).blk t).view.read (Elt Ideal) (Cert.Spec.proj (V c main_arg0) (V c main_arg2)) := by
  show (cfg0.win 2).cut (grid0.coords t) ((dat0 V c).after 2 t) = _
  rw [after0_2]
  unfold out0_2
  rw [View.canon_unit_zero hz]
  simp only [View.ld_unit_zero (S := S2000x1) hz, View.ld_unit_zero (S := S1x64) hz]
  obtain ⟨e0, e1, e2, e3, e4, e5⟩ := idx_facts t
  funext j
  show k0_pay1 (F := Ideal) (iblk0 V c 0 t) (iblk0 V c 1 t) j = Cert.Spec.proj (V c main_arg0) (V c main_arg2) (((cfg0.win 2).blk t).view.emb j)
  refine (tile_apply _ _ j).trans ?_
  unfold Cert.Spec.proj
  refine Finset.sum_congr rfl fun k _ => ?_
  have h0 : ((cfg0.win 0).blk t).view.emb (lrd j k)
      = ix2 (⟨((((cfg0.win 2).blk t).view.emb j) 0).val, ((((cfg0.win 2).blk t).view.emb j) 0).isLt⟩ : Fin 100000) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 1 + 1 * k.val = k.val; omega
  have h1 : ((cfg0.win 1).blk t).view.emb (rrd j k)
      = ix2 k (⟨((((cfg0.win 2).blk t).view.emb j) 1).val, ((((cfg0.win 2).blk t).view.emb j) 1).isLt⟩ : Fin 64) := by
    funext a; apply Fin.ext
    match a with
    | ⟨0, _⟩ => show win0_1.index t (0 : Fin 2) * 1 + 1 * k.val = k.val; omega
    | ⟨1, _⟩ => show win0_1.index t (1 : Fin 2) * 64 + 1 * (j 1).val = win0_2.index t (1 : Fin 2) * 64 + 1 * (j 1).val; omega
  have g0 : (iblk0 V c 0 t : FVec Ideal S2000x1 .f32) (lrd j k)
      = (V c main_arg0 : FVec Ideal Cert.Spec.ShN1 .f32) (ix2 (⟨((((cfg0.win 2).blk t).view.emb j) 0).val, ((((cfg0.win 2).blk t).view.emb j) 0).isLt⟩ : Fin 100000) k) :=
    congrArg (V c main_arg0) h0
  have g1 : (iblk0 V c 1 t : FVec Ideal S1x64 .f32) (rrd j k)
      = (V c main_arg2 : FVec Ideal Cert.Spec.Sh1x64 .f32) (ix2 k (⟨((((cfg0.win 2).blk t).view.emb j) 1).val, ((((cfg0.win 2).blk t).view.emb j) 1).isLt⟩ : Fin 64)) :=
    congrArg (V c main_arg2) h1
  rw [g0, g1]

/-- An index of the result array lies in point `t`'s tile iff each coordinate lies in the tile's range on its axis. -/
theorem mem_blk (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v30).slice (win0_2.rect t)).set ↔ _
  rw [View.set_slice_whole, Rect.mem_set_unit]
  exact Iff.rfl

/-- The fifty row tiles fill the array: row `r` lies in the tile of point `r / 2000`. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 2000 :=
    ⟨⟨(i 0).val / 2000, show (i 0).val / 2000 < 50 by omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- The array the first region writes ends holding the whole product `x · W₁`. -/
theorem value (c : Dev nD) :
    (dat0 (F := Ideal) V c).arrAt 2 cfg0.N = Cert.Spec.proj (V c main_arg0) (V c main_arg2) :=
  (dat0 (F := Ideal) V c).arrAt_eq_of_cover 2 (Cert.Spec.proj (V c main_arg0) (V c main_arg2))
    (fun t _ => flushed_eq V c t) cover

end Cert.KernelIdeal.Region0

end
-- ==== Proof.Region1.lean ====
/-
  The second region (bias, rectifier and the projection onto W₂, fused; fifty row tiles of 2000): whatever the buffers
  hold when the region is entered, the result array ends holding `Spec.tail` of the three operand arrays.
-/
import proofs.«146881_j44976897524569_1_alg».proof.Proof.Gen.KernelIdeal.Frame
import proofs.«146881_j44976897524569_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen

/-! ## The contraction of the tile's product, axis by axis -/

theorem lhs_row (i : S2000x1.Idx) (q : dot_S2000x64_S64x1_S2000x1_1_0_0_1_n_n.contr.Idx) :
    (dot_S2000x64_S64x1_S2000x1_1_0_0_1_n_n.lhsIdx i q 0).val = (i 0).val := by
  unfold DotDims.lhsIdx
  rw [dif_neg (show ¬(0 : Fin S2000x64.rank) ∈ dot_S2000x64_S64x1_S2000x1_1_0_0_1_n_n.lhsBatch by decide), dif_pos (show (0 : Fin S2000x64.rank) ∈ dot_S2000x64_S64x1_S2000x1_1_0_0_1_n_n.lhsNonContracting by decide)]
  rfl
theorem lhs_inner (i : S2000x1.Idx) (q : dot_S2000x64_S64x1_S2000x1_1_0_0_1_n_n.contr.Idx) :
    (dot_S2000x64_S64x1_S2000x1_1_0_0_1_n_n.lhsIdx i q 1).val = (q ⟨0, by decide⟩).val :=
  dot_S2000x64_S64x1_S2000x1_1_0_0_1_n_n.lhsIdx_val_of_single rfl i q
theorem rhs_inner (i : S2000x1.Idx) (q : dot_S2000x64_S64x1_S2000x1_1_0_0_1_n_n.contr.Idx) :
    (dot_S2000x64_S64x1_S2000x1_1_0_0_1_n_n.rhsIdx i q 0).val = (q ⟨0, by decide⟩).val :=
  dot_S2000x64_S64x1_S2000x1_1_0_0_1_n_n.rhsIdx_val_of_single rfl i q
theorem rhs_col (i : S2000x1.Idx) (q : dot_S2000x64_S64x1_S2000x1_1_0_0_1_n_n.contr.Idx) :
    (dot_S2000x64_S64x1_S2000x1_1_0_0_1_n_n.rhsIdx i q 1).val = (i 1).val := by
  unfold DotDims.rhsIdx
  rw [dif_neg (show ¬(1 : Fin S64x1.rank) ∈ dot_S2000x64_S64x1_S2000x1_1_0_0_1_n_n.rhsBatch by decide), dif_pos (show (1 : Fin S64x1.rank) ∈ dot_S2000x64_S64x1_S2000x1_1_0_0_1_n_n.rhsNonContracting by decide)]
  rfl

/-- A tile's product with a zero accumulator, read at row `p` and column `q`, is the sum over the 64 inner indices. -/
theorem tile_product_apply (y : FVec Ideal S2000x64 .bf16) (z : FVec Ideal S64x1 .bf16) (p : Fin 2000) (q : Fin 1) :
    matmul (F := Ideal) dot_S2000x64_S64x1_S2000x1_1_0_0_1_n_n none y z (constant (F := Ideal) S2000x1 .f32 0x00000000#32) (ix2 p q)
      = ∑ k : Fin 64, y (ix2 p k) * z (ix2 k q) := by
  refine (Ideal.matmul_constant_zero_apply dot_S2000x64_S64x1_S2000x1_1_0_0_1_n_n none y z (ix2 p q)).trans ?_
  rw [← Equiv.sum_comp (ValueIdx.contrEquiv1 dot_S2000x64_S64x1_S2000x1_1_0_0_1_n_n 64 rfl rfl).symm]
  refine Finset.sum_congr rfl fun k _ => ?_
  have hk := ValueIdx.contrEquiv1_symm_val dot_S2000x64_S64x1_S2000x1_1_0_0_1_n_n 64 rfl rfl k
  have el : dot_S2000x64_S64x1_S2000x1_1_0_0_1_n_n.lhsIdx (ix2 p q) ((ValueIdx.contrEquiv1 dot_S2000x64_S64x1_S2000x1_1_0_0_1_n_n 64 rfl rfl).symm k) = ix2 p k := funext fun a => Fin.ext (by
    match a with
    | ⟨0, _⟩ => exact lhs_row _ _
    | ⟨1, _⟩ => exact (lhs_inner _ _).trans hk)
  have er : dot_S2000x64_S64x1_S2000x1_1_0_0_1_n_n.rhsIdx (ix2 p q) ((ValueIdx.contrEquiv1 dot_S2000x64_S64x1_S2000x1_1_0_0_1_n_n 64 rfl rfl).symm k) = ix2 k q := funext fun a => Fin.ext (by
    match a with
    | ⟨0, _⟩ => exact (rhs_inner _ _).trans hk
    | ⟨1, _⟩ => exact rhs_col _ _)
  rw [el, er]

/-- The body's result at row `p`, column `q` of the tile: the rectified biased row of the first operand against the
    column of the third. -/
theorem body_apply (x0 : FVec Ideal S2000x64 .f32) (x1 : FVec Ideal S1x64 .f32) (x2 : FVec Ideal S64x1 .f32) (p : Fin 2000) (q : Fin 1) :
    k1_pay1 (F := Ideal) x0 x1 x2 (ix2 p q)
      = ∑ k : Fin 64, max (x0 (ix2 p k) + x1 (ix2 (0 : Fin 1) k)) (Ideal.ofBits .f32 0x00000000#32) * x2 (ix2 k q) := by
  unfold k1_pay1
  refine (tile_product_apply _ _ p q).trans ?_
  refine Finset.sum_congr rfl fun k _ => ?_
  rw [truncf_apply, truncf_apply, maximumf_apply, addf_apply, shapeCast_self, shapeCast_self, broadcastTo_1b_ab_apply, broadcast_apply]
  rfl

/-! ## From the tiles to the array -/

theorem origin_eq : (![0, 0] : Fin 2 → Nat) = fun _ => 0 := funext fun a => by fin_cases a <;> rfl

/-- The body's result at an index of the tile, against operand blocks that agree with three arrays `a`, `b`, `w` where the
    result's place `i` in the whole array says: row `j 0` of the first block is row `i 0` of `a`, the second block is `b`,
    column `j 1` of the third is column `i 1` of `w`. -/
theorem body_eq_tail (x0 : FVec Ideal S2000x64 .f32) (x1 : FVec Ideal S1x64 .f32) (x2 : FVec Ideal S64x1 .f32)
    (a : FVec Ideal Cert.Spec.ShN64 .f32) (b : FVec Ideal Cert.Spec.Sh1x64 .f32) (w : FVec Ideal Cert.Spec.Sh64x1 .f32)
    (j : S2000x1.Idx) (i : Cert.Spec.ShN1.Idx)
    (h0 : ∀ k : Fin 64, x0 (ix2 (j 0) k) = a (ix2 (⟨(i 0).val, (i 0).isLt⟩ : Fin 100000) k))
    (h1 : ∀ k : Fin 64, x1 (ix2 (0 : Fin 1) k) = b (ix2 (0 : Fin 1) k))
    (h2 : ∀ k : Fin 64, x2 (ix2 k (j 1)) = w (ix2 k (⟨(i 1).val, (i 1).isLt⟩ : Fin 1))) :
    k1_pay1 (F := Ideal) x0 x1 x2 j = Cert.Spec.tail a b w i := by
  obtain ⟨p, q, rfl⟩ : ∃ (p : Fin 2000) (q : Fin 1), j = ix2 p q := ⟨j 0, j 1, eq_ix2 j⟩
  refine (body_apply x0 x1 x2 p q).trans ?_
  unfold Cert.Spec.tail
  refine Finset.sum_congr rfl fun k _ => ?_
  rw [← h0 k, ← h1 k, ← h2 k]

/-- The printed index maps over the fifty points: the first operand's row block moves with the result's, which is the
    point's number; every other block index is zero. -/
theorem block_indices : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 49 ∧ win1_3.index t (1 : Fin 2) = 0 :=
  (by decide +kernel : ∀ t : Fin grid1.N, _)

/-- Every row block of the result is some point's. -/
theorem block_onto : ∀ (r : Fin 50), ∃ t : Fin cfg1.N, win1_3.index t = ![r.val, 0] :=
  (by decide +kernel : ∀ (r : Fin 50), ∃ t : Fin grid1.N, win1_3.index t = ![r.val, 0])

-- the TensorCore's buffer contents when the region is entered
variable (V : (c : Dev nD) → (b : Ref sig .tc) → Buf (Elt Ideal) ((c : Thread nD τ).loc b))

/-- What point `t` writes back is its block of `Spec.tail` of the operand arrays as the region finds them. -/
theorem flushed_eq (c : Dev nD) (t : Fin cfg1.N) :
    (dat1 (F := Ideal) V c).flushed 3 t
      = ((cfg1.win 3).blk t).view.read (Elt Ideal) (Cert.Spec.tail (V c main_v43) (V c main_v44) (V c main_arg4)) := by
  show (cfg1.win 3).cut (grid1.coords t) ((dat1 V c).after 3 t) = _
  rw [after1_3]
  unfold out1_3
  rw [View.canon_unit_zero origin_eq]
  simp only [View.ld_unit_zero (S := S2000x64) origin_eq, View.ld_unit_zero (S := S1x64) origin_eq, View.ld_unit_zero (S := S64x1) origin_eq]
  obtain ⟨e0, e1, e2, e3, e4, e5, e6, e7⟩ := block_indices t
  funext j
  refine body_eq_tail (iblk1 V c 0 t) (iblk1 V c 1 t) (iblk1 V c 2 t) (V c main_v43) (V c main_v44) (V c main_arg4) j (((cfg1.win 3).blk t).view.emb j) (fun k => ?_) (fun k => ?_) (fun k => ?_)
  · show V c main_v43 (((cfg1.win 0).blk t).view.emb (ix2 (j 0) k)) = _
    refine congrArg _ (funext fun a => Fin.ext ?_)
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 64 + 1 * k.val = k.val; omega
  · show V c main_v44 (((cfg1.win 1).blk t).view.emb (ix2 (0 : Fin 1) k)) = _
    refine congrArg _ (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  · show V c main_arg4 (((cfg1.win 2).blk t).view.emb (ix2 k (j 1))) = _
    refine congrArg _ (funext fun a => Fin.ext ?_)
    match a with
    | ⟨0, _⟩ => show win1_2.index t (0 : Fin 2) * 64 + 1 * k.val = k.val; omega
    | ⟨1, _⟩ => show win1_2.index t (1 : Fin 2) * 1 + 1 * (j 1).val = win1_3.index t (1 : Fin 2) * 1 + 1 * (j 1).val; omega

/-- An index of the result array is in point `t`'s block iff each coordinate is in the block's range on its axis. -/
theorem mem_block (t : Fin cfg1.N) (i : S100000x1.Idx) :
    i ∈ ((cfg1.win 3).blk t).view.set ↔ ∀ a : Fin 2, win1_3.index t a * S2000x1.size a ≤ (i a).val ∧ (i a).val < win1_3.index t a * S2000x1.size a + S2000x1.size a := by
  show i ∈ ((View.whole main_v45).slice (win1_3.rect t)).set ↔ _
  rw [View.set_slice_whole, Rect.mem_set_unit]
  exact Iff.rfl

/-- The fifty row blocks fill the result array: row `r` is in the block of point `r / 2000`. -/
theorem blocks_cover (i : S100000x1.Idx) :
    ∃ t : Fin cfg1.N, (cfg1.win 3).flush t = true ∧ i ∈ ((cfg1.win 3).blk t).view.set := by
  have hi0 : (i 0).val < 100000 := (i 0).isLt
  have hi1 : (i 1).val < 1 := (i 1).isLt
  obtain ⟨t, ht⟩ := block_onto ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 1 ≤ (i 1).val ∧ (i 1).val < win1_3.index t (1 : Fin 2) * 1 + 1; omega

/-- The array the second region writes ends holding `max (a + b) 0 · W₂` of its operands' arrays. -/
theorem value (c : Dev nD) :
    (dat1 (F := Ideal) V c).arrAt 3 cfg1.N = Cert.Spec.tail (V c main_v43) (V c main_v44) (V c main_arg4) := by
  exact (dat1 (F := Ideal) V c).arrAt_eq_of_cover 3 (Cert.Spec.tail (V c main_v43) (V c main_v44) (V c main_arg4))
    (fun t _ => flushed_eq V c t) blocks_cover

end Cert.KernelIdeal.Region1

end
-- ==== Proof.Region2.lean ====
/-
  The third region (the last bias; fifty row tiles of 2000): whatever the buffers hold when the region is entered, the
  result array ends holding `Spec.bias` of the two operand arrays.
-/
import proofs.«146881_j44976897524569_1_alg».proof.Proof.Gen.KernelIdeal.Frame
import proofs.«146881_j44976897524569_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen

-- the TensorCore's buffer contents when the region is entered
variable (V : (c : Dev nD) → (b : Ref sig .tc) → Buf (Elt Ideal) ((c : Thread nD τ).loc b))

/-- The zero offsets of a whole-block access, spelt as the constant function. -/
theorem zero_off : (![0, 0] : Fin 2 → Nat) = fun _ => 0 := funext fun a => by fin_cases a <;> rfl

/-- One entry of the body's sum: the tile's entry in that row plus the single bias entry (the two casts keep
    the shape, the broadcast repeats the one entry down the rows). -/
theorem tile_sum_apply (x0 : Vec Ideal S2000x1 .f32) (x1 : Vec Ideal S1x1 .f32) (p : Fin 2000) (q : Fin 1) :
    k2_pay1 x0 x1 (ix2 p q) = x0 (ix2 p q) + x1 (ix2 (0 : Fin 1) (0 : Fin 1)) := by
  unfold k2_pay1
  refine (addf_apply _ _ _).trans ?_
  rw [shapeCast_self, shapeCast_self]
  refine congrArg (x0 (ix2 p q) + ·) ?_
  refine broadcastTo_apply x1 _ (ix2 p q) (ix2 (0 : Fin 1) (0 : Fin 1)) (fun a => ?_)
  match a with
  | ⟨0, _⟩ => rfl
  | ⟨1, _⟩ => rfl

/-- A tile's sum against the whole-array sum: where the tile's row is row `i` of the first operand and the
    tile's bias entry is the operand's, the body's entry is `Spec.bias` at `i`. -/
theorem tile_sum_eq_bias (a : FVec Ideal Cert.Spec.ShN1 .f32) (b : FVec Ideal Cert.Spec.Sh1x1 .f32)
    (x0 : Vec Ideal S2000x1 .f32) (x1 : Vec Ideal S1x1 .f32) (j : S2000x1.Idx) (i : Cert.Spec.ShN1.Idx)
    (h0 : x0 j = a i) (h1 : x1 (ix2 (0 : Fin 1) (0 : Fin 1)) = b (ix2 (0 : Fin 1) (0 : Fin 1))) :
    k2_pay1 x0 x1 j = Cert.Spec.bias a b i := by
  obtain ⟨p, q, rfl⟩ : ∃ (p : Fin 2000) (q : Fin 1), j = ix2 p q := ⟨j 0, j 1, eq_ix2 j⟩
  rw [tile_sum_apply, h0, h1]
  rfl

/-- The printed index maps over the fifty points: the first operand's tile moves with the result's, the bias
    block stays at the origin, and the result's tile at point `t` is tile `t`. -/
theorem idx_facts : ∀ t : Fin cfg2.N, win2_0.index t (0 : Fin 2) = win2_2.index t (0 : Fin 2)
    ∧ win2_0.index t (1 : Fin 2) = win2_2.index t (1 : Fin 2)
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point `t` writes back is tile `t` of `Spec.bias` of the two operand arrays. -/
theorem flushed_eq (c : Dev nD) (t : Fin cfg2.N) :
    (dat2 (F := Ideal) V c).flushed 2 t
      = ((cfg2.win 2).blk t).view.read (Elt Ideal) (Cert.Spec.bias (V c main_v57) (V c main_v58)) := by
  show (cfg2.win 2).cut (grid2.coords t) ((dat2 V c).after 2 t) = _
  rw [after2_2]
  unfold out2_2
  rw [View.canon_unit_zero zero_off]
  simp only [View.ld_unit_zero (S := S2000x1) zero_off, View.ld_unit_zero (S := S1x1) zero_off]
  obtain ⟨e0, e1, e2, e3, e4, e5⟩ := idx_facts t
  funext j
  refine tile_sum_eq_bias (V c main_v57) (V c main_v58) (iblk2 V c 0 t) (iblk2 V c 1 t) j
    (((cfg2.win 2).blk t).view.emb j) ?_ ?_
  · show V c main_v57 (((cfg2.win 0).blk t).view.emb j) = V c main_v57 (((cfg2.win 2).blk t).view.emb j)
    refine congrArg (V c main_v57) ?_
    funext a; apply Fin.ext
    match a with
    | ⟨0, _⟩ =>
      show win2_0.index t (0 : Fin 2) * 2000 + 1 * (j 0).val = win2_2.index t (0 : Fin 2) * 2000 + 1 * (j 0).val
      omega
    | ⟨1, _⟩ =>
      show win2_0.index t (1 : Fin 2) * 1 + 1 * (j 1).val = win2_2.index t (1 : Fin 2) * 1 + 1 * (j 1).val
      omega
  · show V c main_v58 (((cfg2.win 1).blk t).view.emb (ix2 (0 : Fin 1) (0 : Fin 1))) = V c main_v58 (ix2 (0 : Fin 1) (0 : Fin 1))
    refine congrArg (V c main_v58) ?_
    funext a; apply Fin.ext
    match a with
    | ⟨0, _⟩ =>
      show win2_1.index t (0 : Fin 2) * 1 + 1 * 0 = 0
      omega
    | ⟨1, _⟩ =>
      show win2_1.index t (1 : Fin 2) * 1 + 1 * 0 = 0
      omega

/-- A row of the result array is in point `t`'s tile iff each of its coordinates is in the tile's range on its axis. -/
theorem mem_tile (t : Fin cfg2.N) (i : S100000x1.Idx) :
    i ∈ ((cfg2.win 2).blk t).view.set ↔ ∀ a : Fin 2, win2_2.index t a * S2000x1.size a ≤ (i a).val
      ∧ (i a).val < win2_2.index t a * S2000x1.size a + S2000x1.size a := by
  show i ∈ ((View.whole main_v59).slice (win2_2.rect t)).set ↔ _
  rw [View.set_slice_whole, Rect.mem_set_unit]
  exact Iff.rfl

/-- The fifty tiles fill the result array: row `r` lies in the tile of point `r / 2000`, which is written back. -/
theorem tiles_cover (i : S100000x1.Idx) :
    ∃ t : Fin cfg2.N, (cfg2.win 2).flush t = true ∧ i ∈ ((cfg2.win 2).blk t).view.set := by
  have hi0 : (i 0).val < 100000 := (i 0).isLt
  have hi1 : (i 1).val < 1 := (i 1).isLt
  have hN : cfg2.N = 50 := by decide
  obtain ⟨t, ht⟩ : ∃ t : Fin cfg2.N, t.val = (i 0).val / 2000 := ⟨⟨(i 0).val / 2000, by rw [hN]; omega⟩, rfl⟩
  obtain ⟨e0, e1, e2, e3, e4, e5⟩ := idx_facts t
  refine ⟨t, flush2_2 t, ?_⟩
  rw [mem_tile]
  intro a
  match a with
  | ⟨0, _⟩ =>
    show win2_2.index t (0 : Fin 2) * 2000 ≤ (i 0).val ∧ (i 0).val < win2_2.index t (0 : Fin 2) * 2000 + 2000
    omega
  | ⟨1, _⟩ =>
    show win2_2.index t (1 : Fin 2) * 1 ≤ (i 1).val ∧ (i 1).val < win2_2.index t (1 : Fin 2) * 1 + 1
    omega

/-- The array the third region writes ends holding its first operand plus the one bias entry. -/
theorem value (c : Dev nD) :
    (dat2 (F := Ideal) V c).arrAt 2 cfg2.N = Cert.Spec.bias (V c main_v57) (V c main_v58) :=
  (dat2 (F := Ideal) V c).arrAt_eq_of_cover 2 (Cert.Spec.bias (V c main_v57) (V c main_v58))
    (fun t _ => flushed_eq V c t) tiles_cover

end Cert.KernelIdeal.Region2

end
-- ==== Proof.RefStages.lean ====
/-
  The reference's three dense stages, read index by index, are the functions of `Spec`: its two `dot_general`s are the
  sums over the inner index, the bias is broadcast along the rows before the rectifier, and the last bias is one entry
  added everywhere.
-/
import proofs.«146881_j44976897524569_1_alg».proof.Proof.RefRead
import proofs.«146881_j44976897524569_1_alg».proof.Proof.Spec

noncomputable section

namespace Cert.ReferenceIdeal.Stages

open Idealize.ShloMosaic Idealize.ShloMosaic.ValueIdx
open Cert.ReferenceIdeal Cert.ReferenceIdeal.ReadP

/-- The reference's first `dot_general` is `x · W₁`. -/
theorem proj_eq (x0 : (⟨S100000x1, .f32⟩ : BufTy).Contents (Elt Ideal)) (x2 : (⟨S1x64, .f32⟩ : BufTy).Contents (Elt Ideal)) :
    val_main_v0 (F := Ideal) x0 x2 = Cert.Spec.proj x0 x2 := by
  funext i
  rw [val_main_v0_apply]
  unfold Cert.Spec.proj
  refine Finset.sum_congr rfl fun k _ => ?_
  have el : lidx_main_v0 i k = ix2 (⟨(i 0).val, (i 0).isLt⟩ : Fin 100000) k :=
    funext fun a => Fin.ext (by match a with | ⟨0, _⟩ => rfl | ⟨1, _⟩ => rfl)
  have er : ridx_main_v0 i k = ix2 k (⟨(i 1).val, (i 1).isLt⟩ : Fin 64) :=
    funext fun a => Fin.ext (by match a with | ⟨0, _⟩ => rfl | ⟨1, _⟩ => rfl)
  rw [el, er]

/-- The reference's second layer up to its aggregation — bias row broadcast over the rows, rectifier, `dot_general` with
    W₂ — is `Spec.tail` of the first aggregation, the bias as a row, and W₂. -/
theorem tail_eq (x0 : (⟨S100000x1, .f32⟩ : BufTy).Contents (Elt Ideal)) (x1 : (⟨S2x1200000, .i32⟩ : BufTy).Contents (Elt Ideal))
    (x2 : (⟨S1x64, .f32⟩ : BufTy).Contents (Elt Ideal)) (x3 : (⟨S64, .f32⟩ : BufTy).Contents (Elt Ideal))
    (x4 : (⟨S64x1, .f32⟩ : BufTy).Contents (Elt Ideal)) :
    val_main_v49 (F := Ideal) x0 x1 x2 x3 x4
      = Cert.Spec.tail (val_main_v44 (F := Ideal) x0 x1 x2) (val_main_v45 (F := Ideal) x3) x4 := by
  funext i
  rw [val_main_v49_apply]
  unfold Cert.Spec.tail
  refine Finset.sum_congr rfl fun k _ => ?_
  rw [val_main_v48_apply, val_main_v47_apply, val_main_v46_apply, val_main_call1_v0_apply, val_main_call1_cst_apply]
  have eb : idx_main_v46 (lidx_main_v49 i k) = ix2 (0 : Fin 1) k :=
    funext fun a => Fin.ext (by match a with | ⟨0, _⟩ => rfl | ⟨1, _⟩ => rfl)
  have el : lidx_main_v49 i k = ix2 (⟨(i 0).val, (i 0).isLt⟩ : Fin 100000) k :=
    funext fun a => Fin.ext (by match a with | ⟨0, _⟩ => rfl | ⟨1, _⟩ => rfl)
  have er : ridx_main_v49 i k = ix2 k (⟨(i 1).val, (i 1).isLt⟩ : Fin 1) :=
    funext fun a => Fin.ext (by match a with | ⟨0, _⟩ => rfl | ⟨1, _⟩ => rfl)
  rw [eb, el, er]
  rfl

/-- The reference's last addition is `Spec.bias` of the second aggregation and the bias as a one-entry row. -/
theorem bias_eq (x0 : (⟨S100000x1, .f32⟩ : BufTy).Contents (Elt Ideal)) (x1 : (⟨S2x1200000, .i32⟩ : BufTy).Contents (Elt Ideal))
    (x2 : (⟨S1x64, .f32⟩ : BufTy).Contents (Elt Ideal)) (x3 : (⟨S64, .f32⟩ : BufTy).Contents (Elt Ideal))
    (x4 : (⟨S64x1, .f32⟩ : BufTy).Contents (Elt Ideal)) (x5 : (⟨S1, .f32⟩ : BufTy).Contents (Elt Ideal)) :
    val_main_v95 (F := Ideal) x0 x1 x2 x3 x4 x5
      = Cert.Spec.bias (val_main_v92 (F := Ideal) x0 x1 x2 x3 x4) (val_main_v93 (F := Ideal) x5) := by
  funext i
  rw [val_main_v95_apply, val_main_v94_apply]
  have e : idx_main_v94 i = ix2 (0 : Fin 1) (0 : Fin 1) :=
    funext fun a => Fin.ext (by match a with | ⟨0, _⟩ => rfl | ⟨1, _⟩ => rfl)
  rw [e]
  rfl

end Cert.ReferenceIdeal.Stages

end
-- ==== Proof.Result.lean ====
/-
  The kernel's result array, boundary by boundary, is the reference's last stage of the same arguments.

  At the extended reals each kernel region computes, tile by tile, what one host operation of the reference computes on the
  whole array (`Spec.proj`, `Spec.tail`, `Spec.bias`), and between the regions the two programs apply the same
  aggregation to the same graph data.  So walking @main's boundaries — the graph data, the first projection, the first
  aggregation and the bias row, the fused second layer, the second aggregation and the last bias — the buffers hold the
  reference's stages `val_main_v0`, `v44`, `v49`, `v92` and finally `v95`.
-/
import proofs.«146881_j44976897524569_1_alg».proof.Proof.HostGlue
import proofs.«146881_j44976897524569_1_alg».proof.Proof.Region0
import proofs.«146881_j44976897524569_1_alg».proof.Proof.Region1
import proofs.«146881_j44976897524569_1_alg».proof.Proof.Region2
import proofs.«146881_j44976897524569_1_alg».proof.Proof.RefStages

set_option maxRecDepth 16384

noncomputable section

namespace Cert.KernelIdeal.Result

open Idealize.ShloMosaic Idealize.ShloMosaic.TcCoe Idealize.SL.Sem Idealize.ShloMosaic.StableHlo
open Cert.KernelIdeal Cert.KernelIdeal.Gen Cert.KernelIdeal.HostGlue
open Cert.ReferenceIdeal.ReadP

variable (m : (ℓ : Loc nD τ sig) → Buf (Elt Ideal) ℓ) (ρ : Dev nD → PrngReg) (c : Dev nD)

/-- The six argument arrays as launched: node features, edge list, W₁, b₁, W₂, b₂. -/
abbrev ax : (⟨Cert.ReferenceIdeal.S100000x1, .f32⟩ : BufTy).Contents (Elt Ideal) := m ((c : Thread nD τ).loc main_arg0)
abbrev ae : (⟨Cert.ReferenceIdeal.S2x1200000, .i32⟩ : BufTy).Contents (Elt Ideal) := m ((c : Thread nD τ).loc main_arg1)
abbrev aw1 : (⟨Cert.ReferenceIdeal.S1x64, .f32⟩ : BufTy).Contents (Elt Ideal) := m ((c : Thread nD τ).loc main_arg2)
abbrev ab1 : (⟨Cert.ReferenceIdeal.S64, .f32⟩ : BufTy).Contents (Elt Ideal) := m ((c : Thread nD τ).loc main_arg3)
abbrev aw2 : (⟨Cert.ReferenceIdeal.S64x1, .f32⟩ : BufTy).Contents (Elt Ideal) := m ((c : Thread nD τ).loc main_arg4)
abbrev ab2 : (⟨Cert.ReferenceIdeal.S1, .f32⟩ : BufTy).Contents (Elt Ideal) := m ((c : Thread nD τ).loc main_arg5)

/-! ## After the first region: the projection `x · W₁` -/

theorem W4_proj : W4 m ρ c (Proc.devRef .tc main_v30) = val_main_v0 (F := Ideal) (ax m c) (aw1 m c) :=
  (W4_arr m ρ c 2).trans ((Cert.KernelIdeal.Region0.value (V3 m ρ) c).trans
    ((congr (congrArg Cert.Spec.proj (W3_arg0 m ρ c)) (W3_arg2 m ρ c)).trans
      (Cert.ReferenceIdeal.Stages.proj_eq (ax m c) (aw1 m c)).symm))

theorem W4_src : W4 m ρ c (Proc.devRef .tc main_v5) = val_main_v4 (F := Ideal) (ae m c) :=
  (W4_of_ne m ρ c main_v5 (by decide)).trans (W3_src m ρ c)
theorem W4_dst : W4 m ρ c (Proc.devRef .tc main_v6) = val_main_v8 (F := Ideal) (ae m c) :=
  (W4_of_ne m ρ c main_v6 (by decide)).trans (W3_dst m ρ c)
theorem W4_norm : W4 m ρ c (Proc.devRef .tc main_v29) = val_main_v31 (F := Ideal) (ae m c) :=
  (W4_of_ne m ρ c main_v29 (by decide)).trans (W3_norm m ρ c)

/-! ## Entering the second region: the first aggregation, the bias row, W₂ -/

theorem W5_agg : W5 m ρ c (Proc.devRef .tc main_v43) = val_main_v44 (F := Ideal) (ax m c) (ae m c) (aw1 m c) :=
  stretch1_agg (W4 m ρ c) (ax m c) (ae m c) (aw1 m c) (W4_proj m ρ c) (W4_src m ρ c) (W4_dst m ρ c) (W4_norm m ρ c)

theorem W5_bias : W5 m ρ c (Proc.devRef .tc main_v44) = val_main_v45 (F := Ideal) (ab1 m c) :=
  stretch1_bias (W4 m ρ c) (ab1 m c) ((W4_of_ne m ρ c main_arg3 (by decide)).trans (W3_arg3 m ρ c))

theorem W5_arg4 : W5 m ρ c (Proc.devRef .tc main_arg4) = aw2 m c :=
  (stretch1_keeps_arg4 (W4 m ρ c)).trans ((W4_of_ne m ρ c main_arg4 (by decide)).trans (W3_arg4 m ρ c))

/-! ## After the second region: bias, rectifier and the projection onto W₂ -/

theorem W6_tail : W6 m ρ c (Proc.devRef .tc main_v45)
    = val_main_v49 (F := Ideal) (ax m c) (ae m c) (aw1 m c) (ab1 m c) (aw2 m c) :=
  (W6_arr m ρ c 3).trans ((Cert.KernelIdeal.Region1.value (V5 m ρ) c).trans
    ((congr (congr (congrArg Cert.Spec.tail (W5_agg m ρ c)) (W5_bias m ρ c)) (W5_arg4 m ρ c)).trans
      (Cert.ReferenceIdeal.Stages.tail_eq (ax m c) (ae m c) (aw1 m c) (ab1 m c) (aw2 m c)).symm))

theorem W6_src : W6 m ρ c (Proc.devRef .tc main_v5) = val_main_v53 (F := Ideal) (ae m c) :=
  (W6_of_ne m ρ c main_v5 (by decide)).trans ((stretch1_keeps_src (W4 m ρ c)).trans ((W4_src m ρ c).trans (src_copy _).symm))
theorem W6_dst : W6 m ρ c (Proc.devRef .tc main_v6) = val_main_v57 (F := Ideal) (ae m c) :=
  (W6_of_ne m ρ c main_v6 (by decide)).trans ((stretch1_keeps_dst (W4 m ρ c)).trans ((W4_dst m ρ c).trans (dst_copy _).symm))
theorem W6_norm : W6 m ρ c (Proc.devRef .tc main_v29) = val_main_v80 (F := Ideal) (ae m c) :=
  (W6_of_ne m ρ c main_v29 (by decide)).trans ((stretch1_keeps_norm (W4 m ρ c)).trans ((W4_norm m ρ c).trans (norm_copy _).symm))
theorem W6_arg5 : W6 m ρ c (Proc.devRef .tc main_arg5) = ab2 m c :=
  (W6_of_ne m ρ c main_arg5 (by decide)).trans ((stretch1_keeps_arg5 (W4 m ρ c)).trans
    ((W4_of_ne m ρ c main_arg5 (by decide)).trans (W3_arg5 m ρ c)))

/-! ## Entering the third region: the second aggregation and the last bias -/

theorem W7_agg : W7 m ρ c (Proc.devRef .tc main_v57)
    = val_main_v92 (F := Ideal) (ax m c) (ae m c) (aw1 m c) (ab1 m c) (aw2 m c) :=
  stretch2_agg (W6 m ρ c) (ax m c) (ae m c) (aw1 m c) (ab1 m c) (aw2 m c)
    (W6_tail m ρ c) (W6_src m ρ c) (W6_dst m ρ c) (W6_norm m ρ c)

theorem W7_bias : W7 m ρ c (Proc.devRef .tc main_v58) = val_main_v93 (F := Ideal) (ab2 m c) :=
  stretch2_bias (W6 m ρ c) (ab2 m c) (W6_arg5 m ρ c)

/-! ## The result -/

/-- What the result array holds when @main returns: the reference's last stage of the launch contents of the six
    arguments. -/
theorem result : W8 m ρ c (Proc.devRef .tc main_v59)
    = val_main_v95 (F := Ideal) (ax m c) (ae m c) (aw1 m c) (ab1 m c) (aw2 m c) (ab2 m c) :=
  (W8_arr m ρ c 2).trans ((Cert.KernelIdeal.Region2.value (V7 m ρ) c).trans
    ((congr (congrArg Cert.Spec.bias (W7_agg m ρ c)) (W7_bias m ρ c)).trans
      (Cert.ReferenceIdeal.Stages.bias_eq (ax m c) (ae m c) (aw1 m c) (ab1 m c) (aw2 m c) (ab2 m c)).symm))

end Cert.KernelIdeal.Result

end
-- ==== Proof.lean ====
/-
  A two-layer graph convolution on 100000 nodes: its three dense stages as tiled kernels between host-side aggregations,
  against the plain reference.  Over the extended reals the two programs are the same composition:

      out = A (max (A (x · W₁) + b₁) 0 · W₂) + b₂ ,

  where `A` gathers rows at the edge sources (self loops appended), scales them by `dinv[src] · dinv[dst]` and
  scatter-adds them at the destinations.  The kernel's program differs from the reference in how the dense stages are
  cut — fifty row tiles of 2000, the bias and rectifier fused into the second projection, the operands rounded to a
  narrower format that the extended reals do not see — and in computing the graph data once instead of once per layer.
  No arithmetic law joins the two sides: each tiled stage IS the whole-array stage, index by index (a matrix product into
  a zero accumulator is the sum over the inner index on both sides), and the aggregations are the same terms.  So
  finiteness of the inputs is never used.

  The frames of the two kernel programs are the generated ones; the reference's frame is its run with the result dropped;
  the idealization rewrote nothing, so `preserves` is `True`.  For `algebraic` both runs are stated at the same value,
  the reference's last stage of the kernel program's argument arrays.
-/
import proofs.«146881_j44976897524569_1_alg».proof.Defs
import proofs.«146881_j44976897524569_1_alg».proof.Proof.Gen.Kernel
import proofs.«146881_j44976897524569_1_alg».proof.Proof.Gen.Kernel.Frame
import proofs.«146881_j44976897524569_1_alg».proof.Proof.Gen.KernelIdeal
import proofs.«146881_j44976897524569_1_alg».proof.Proof.Gen.KernelIdeal.Frame
import proofs.«146881_j44976897524569_1_alg».proof.Proof.Gen.ReferenceIdeal
import proofs.«146881_j44976897524569_1_alg».proof.Proof.Gen.Pre_finite_inputs
import proofs.«146881_j44976897524569_1_alg».proof.Proof.RefRun
import proofs.«146881_j44976897524569_1_alg».proof.Proof.RefRead
import proofs.«146881_j44976897524569_1_alg».proof.Proof.KernelRun
import proofs.«146881_j44976897524569_1_alg».proof.Proof.Result
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the result array at the reference's last stage of the (agreeing) argument arrays. -/
theorem algebraic : Cert.algebraic_KernelIdeal_ReferenceIdeal := by
  intro m ρ m' ρ' _ hagree
  refine ⟨fun c => Cert.ReferenceIdeal.ReadP.val_main_v95 (F := Ideal) (Cert.KernelIdeal.Result.ax m c)
      (Cert.KernelIdeal.Result.ae m c) (Cert.KernelIdeal.Result.aw1 m c) (Cert.KernelIdeal.Result.ab1 m c)
      (Cert.KernelIdeal.Result.aw2 m c) (Cert.KernelIdeal.Result.ab2 m c), ?_, ?_⟩
  · exact (θ_run Cert.KernelIdeal.defs _ _).mono
      (fun r h c => ⟨(h c).1.trans (Cert.KernelIdeal.Result.result m ρ c), (h c).2⟩)
      (Cert.KernelIdeal.GenP.run_named (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v95_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
